-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S640000x128 : Shape := ⟨2, ![640000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 59
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000x1, .f32⟩
  | .hbm, ⟨16, _⟩ => ⟨S_, .f32⟩
  | .hbm, ⟨17, _⟩ => ⟨S100000x1, .f32⟩
  | .hbm, ⟨18, _⟩ => ⟨S640000x1, .i32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S100000x128, .f32⟩
  | .hbm, ⟨37, _⟩ => ⟨S640000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S100000x1 : S_.BroadcastsInDim S100000x1 (![] : Fin 0 → Fin S100000x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000x1_S640000x1_S640000x1_1_0_0_1_wf : ScatterDims.WF S100000x1 S640000x1 S640000x1 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S_, .f32⟩
  | .hbm, ⟨28, _⟩ => ⟨S640000x1, .f32⟩
  | .hbm, ⟨29, _⟩ => ⟨S_, .f32⟩
  | .hbm, ⟨30, _⟩ => ⟨S100000x1, .f32⟩
  | .hbm, ⟨31, _⟩ => ⟨S640000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S_, .f32⟩
  | .hbm, ⟨61, _⟩ => ⟨S640000x1, .f32⟩
  | .hbm, ⟨62, _⟩ => ⟨S_, .f32⟩
  | .hbm, ⟨63, _⟩ => ⟨S100000x1, .f32⟩
  | .hbm, ⟨64, _⟩ => ⟨S640000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, stated once over the extended reals.

  A node-feature array has 100000 rows. One dense step of the network takes an aggregated array `a`, the
  features `x`, two square weight matrices and a bias row, and returns, entry by entry,
  `max ((∑ₖ a[r,k]·Wl[k,c] + ∑ₖ x[r,k]·Wr[k,c]) + b[c]) 0`; the closing affine map returns
  `∑ₖ h[r,k]·W[k,c] + b[c]`.  The kernel forms the neighbour mean as `s · (1 / d)` and the reference as `s / d`,
  with `d = max deg 1`; since `d` is never zero the two agree on every extended real, the infinities included.
-/
import Idealize.ShloMosaic.PureOps.Ideal

noncomputable section

namespace Cert.Sage

open Idealize.ShloMosaic

abbrev SFeat : Shape := ⟨2, ![100000, 128]⟩
abbrev SOut : Shape := ⟨2, ![100000, 64]⟩
abbrev SSq : Shape := ⟨2, ![128, 128]⟩
abbrev SLin : Shape := ⟨2, ![128, 64]⟩
abbrev SBias : Shape := ⟨1, ![128]⟩
abbrev SBiasOut : Shape := ⟨1, ![64]⟩

/-- Entry `(row of i, k)` of a feature array. -/
abbrev featAt (i : SFeat.Idx) (k : Fin 128) : SFeat.Idx := fun a => match a with
  | ⟨0, _⟩ => ⟨(i 0).val, (i 0).isLt⟩
  | ⟨1, _⟩ => ⟨k.val, k.isLt⟩
/-- Entry `(k, column of i)` of a square weight matrix. -/
abbrev sqAt (i : SFeat.Idx) (k : Fin 128) : SSq.Idx := fun a => match a with
  | ⟨0, _⟩ => ⟨k.val, k.isLt⟩
  | ⟨1, _⟩ => ⟨(i 1).val, (i 1).isLt⟩
/-- Entry `column of i` of a bias row. -/
abbrev biasAt (i : SFeat.Idx) : SBias.Idx := fun a => match a with
  | ⟨0, _⟩ => ⟨(i 1).val, (i 1).isLt⟩

/-- Entry `(row of i, k)` of a feature array, for an index of the 64-column result. -/
abbrev featAtOut (i : SOut.Idx) (k : Fin 128) : SFeat.Idx := fun a => match a with
  | ⟨0, _⟩ => ⟨(i 0).val, (i 0).isLt⟩
  | ⟨1, _⟩ => ⟨k.val, k.isLt⟩
/-- Entry `(k, column of i)` of the closing weight matrix. -/
abbrev linAt (i : SOut.Idx) (k : Fin 128) : SLin.Idx := fun a => match a with
  | ⟨0, _⟩ => ⟨k.val, k.isLt⟩
  | ⟨1, _⟩ => ⟨(i 1).val, (i 1).isLt⟩
/-- Entry `column of i` of the closing bias row. -/
abbrev biasAtOut (i : SOut.Idx) : SBiasOut.Idx := fun a => match a with
  | ⟨0, _⟩ => ⟨(i 1).val, (i 1).isLt⟩

/-- One dense step: `max ((a·Wl + x·Wr) + b) 0`, entry by entry. -/
def dense (a x : SFeat.Idx → EReal) (wl wr : SSq.Idx → EReal) (b : SBias.Idx → EReal) : SFeat.Idx → EReal := fun i =>
  max ((∑ k : Fin 128, a (featAt i k) * wl (sqAt i k) + ∑ k : Fin 128, x (featAt i k) * wr (sqAt i k)) + b (biasAt i)) 0

/-- The closing affine map: `h·W + b`, entry by entry. -/
def affine (h : SFeat.Idx → EReal) (w : SLin.Idx → EReal) (b : SBiasOut.Idx → EReal) : SOut.Idx → EReal := fun i =>
  (∑ k : Fin 128, h (featAtOut i k) * w (linAt i k)) + b (biasAtOut i)

/-- Multiplying by the reciprocal of a nonzero extended real is dividing by it: both are `x · d⁻¹`. -/
theorem mul_one_div (x d : EReal) (hd : d ≠ 0) : x * Ideal.div 1 d = Ideal.div x d := by
  simp only [Ideal.div, if_neg hd, one_mul]

/-- A degree clamped below by one is never zero. -/
theorem max_one_ne_zero (a : EReal) : max a 1 ≠ 0 :=
  ne_of_gt (lt_of_lt_of_le zero_lt_one (le_max_right a 1))

end Cert.Sage

end
-- ==== Proof.HostK.lean ====
/-
  The kernel program's result, read through its five segments.

  The host stretch before the first region forms, from the edge list, the source and destination rows, the
  reciprocal `1 / max deg 1` of the clamped in-degree, and the first neighbour mean `sum · (1 / max deg 1)`; the
  stretch between the first two regions forms the same mean of the first region's output.  Each region leaves its
  output array at the dense step (or the closing affine map) of the arrays it found, and touches nothing else.
  Walking the boundaries' contents back to the launch memory gives the result as one function of the arguments.
-/
import proofs.«176615_j37744172597441_1_alg».proof.Proof.Gen.KernelIdeal.Frame
import proofs.«176615_j37744172597441_1_alg».proof.Proof.Spec
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

/-! ## The host stretches as functions -/

section Defs
variable {F : FTy → Type} [FloatOps F]

/-- Row `r` of the edge list as a vector of 640000 node numbers. -/
def edgeRow0 (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000
def edgeRow1 (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The reciprocal of the clamped in-degree: `1 / max (number of edges into the node) 1`. -/
def invDeg (dst : (⟨S640000, .i32⟩ : BufTy).Contents (Elt F)) : (⟨S100000x1, .f32⟩ : BufTy).Contents (Elt F) :=
  Host.divf (broadcastInDim S100000x1 ![] bcast_S_S100000x1 (constant S_ .f32 0x3F800000#32))
    (maximumf
      (Host.scatterAdd scatter_S100000x1_S640000x1_S640000x1_1_0_0_1
        (broadcastInDim S100000x1 ![] bcast_S_S100000x1 (constant S_ .f32 0x00000000#32))
        (broadcastInDim S640000x1 ![0] bcast_S640000_S640000x1_0 dst)
        (broadcastInDim S640000x1 ![] bcast_S_S640000x1 (constant S_ .f32 0x3F800000#32)))
      (broadcastInDim S100000x1 ![] bcast_S_S100000x1 (constant S_ .f32 0x3F800000#32)))

/-- The rows of `feat` named by the sources (a negative number counted from the end), added up per destination, each
    row then scaled by `s`. -/
def scaledSum (feat : (⟨S100000x128, .f32⟩ : BufTy).Contents (Elt F)) (src dst : (⟨S640000, .i32⟩ : BufTy).Contents (Elt F))
    (s : (⟨S100000x1, .f32⟩ : BufTy).Contents (Elt F)) : (⟨S100000x128, .f32⟩ : BufTy).Contents (Elt F) :=
  mulf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 dst)
      (Host.gather gather_S100000x128_S640000x1_S640000x128_1_0_n_n_0_1_1128 feat
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S100000x128 ![0, 1] bcast_S100000x1_S100000x128_0_1 s)

/-- The kernel program's neighbour mean of a feature array along the edge list. -/
def mean (feat : (⟨S100000x128, .f32⟩ : BufTy).Contents (Elt F)) (ei : (⟨S2x640000, .i32⟩ : BufTy).Contents (Elt F)) :
    (⟨S100000x128, .f32⟩ : BufTy).Contents (Elt F) :=
  scaledSum feat (edgeRow0 ei) (edgeRow1 ei) (invDeg (edgeRow1 ei))

end Defs

/-! ## The two stretches, from any contents -/

/-- From any contents, the first stretch leaves the first region's first operand at the neighbour mean of the features
    buffer along the edge-list buffer. -/
theorem after0_mean (W : Valuation τ sig (Elt Ideal)) :
    StableHlo.after hostOps0 W (Proc.devRef .tc main_v23)
      = mean (F := Ideal) (W (Proc.devRef .tc main_arg0)) (W (Proc.devRef .tc main_arg1)) := by
  after_results_simp
  rfl

/-- From any contents, the second stretch leaves the second region's first operand at the scaled sum of the first
    region's output rows, with the sources, destinations and reciprocal degrees the first stretch left. -/
theorem after1_mean (W : Valuation τ sig (Elt Ideal)) :
    StableHlo.after hostOps1 W (Proc.devRef .tc main_v36)
      = scaledSum (F := Ideal) (W (Proc.devRef .tc main_v24)) (W (Proc.devRef .tc main_v1)) (W (Proc.devRef .tc main_v3))
          (W (Proc.devRef .tc main_v11)) := by
  after_results_simp
  rfl

variable (m : (ℓ : Loc nD τ sig) → Buf (Elt Ideal) ℓ) (ρ : Dev nD → PrngReg)

/-! ## Before the first region -/

theorem W1_src (c : Dev nD) : W1 m ρ c (Proc.devRef .tc main_v1) = edgeRow0 (F := Ideal) (m ((c : Thread nD τ).loc main_arg1)) := by
  show StableHlo.after hostOps0 (W0 m ρ c) (Proc.devRef .tc main_v1) = _
  after_results
  rfl

theorem W1_dst (c : Dev nD) : W1 m ρ c (Proc.devRef .tc main_v3) = edgeRow1 (F := Ideal) (m ((c : Thread nD τ).loc main_arg1)) := by
  show StableHlo.after hostOps0 (W0 m ρ c) (Proc.devRef .tc main_v3) = _
  after_results
  rfl

theorem W1_inv (c : Dev nD) :
    W1 m ρ c (Proc.devRef .tc main_v11) = invDeg (F := Ideal) (edgeRow1 (F := Ideal) (m ((c : Thread nD τ).loc main_arg1))) := by
  show StableHlo.after hostOps0 (W0 m ρ c) (Proc.devRef .tc main_v11) = _
  after_results
  rfl

/-- The first region is entered with its first operand at the neighbour mean of the input features. -/
theorem W1_mean (c : Dev nD) :
    W1 m ρ c (Proc.devRef .tc main_v23)
      = mean (F := Ideal) (m ((c : Thread nD τ).loc main_arg0)) (m ((c : Thread nD τ).loc main_arg1)) :=
  after0_mean (W0 m ρ c)

/-- No operation of the first stretch writes an argument. -/
theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg7 (c : Dev nD) : W1 m ρ c (Proc.devRef .tc main_arg7) = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg8 (c : Dev nD) : W1 m ρ c (Proc.devRef .tc main_arg8) = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg9 (c : Dev nD) : W1 m ρ c (Proc.devRef .tc main_arg9) = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Across the first region: its output array is what its write-backs leave, every other buffer is untouched -/

theorem W2_out (c : Dev nD) : W2 m ρ c (Proc.devRef .tc main_v24) = (dat0 (V1 m ρ) c).arrAt 5 cfg0.N := W2_arr m ρ c 5
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v11 (c : Dev nD) : W2 m ρ c (Proc.devRef .tc main_v11) = W1 m ρ c (Proc.devRef .tc main_v11) := W2_of_ne m ρ c main_v11 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)
theorem W2_arg8 (c : Dev nD) : W2 m ρ c (Proc.devRef .tc main_arg8) = W1 m ρ c (Proc.devRef .tc main_arg8) := W2_of_ne m ρ c main_arg8 (by decide)
theorem W2_arg9 (c : Dev nD) : W2 m ρ c (Proc.devRef .tc main_arg9) = W1 m ρ c (Proc.devRef .tc main_arg9) := W2_of_ne m ρ c main_arg9 (by decide)

/-! ## Between the first two regions -/

/-- The second region is entered with its first operand at the scaled sum of the first region's output rows. -/
theorem W3_mean (c : Dev nD) :
    W3 m ρ c (Proc.devRef .tc main_v36)
      = scaledSum (F := Ideal) (W2 m ρ c (Proc.devRef .tc main_v24)) (W2 m ρ c (Proc.devRef .tc main_v1)) (W2 m ρ c (Proc.devRef .tc main_v3))
          (W2 m ρ c (Proc.devRef .tc main_v11)) :=
  after1_mean (W2 m ρ c)
theorem W3_v24 (c : Dev nD) : W3 m ρ c (Proc.devRef .tc main_v24) = W2 m ρ c (Proc.devRef .tc main_v24) :=
  StableHlo.after_of_forall_not_mem (b := Proc.devRef .tc main_v24) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Across the second and third regions -/

theorem W4_out (c : Dev nD) : W4 m ρ c (Proc.devRef .tc main_v37) = (dat1 (V3 m ρ) c).arrAt 5 cfg1.N := W4_arr m ρ c 5
theorem W4_arg8 (c : Dev nD) : W4 m ρ c (Proc.devRef .tc main_arg8) = W3 m ρ c (Proc.devRef .tc main_arg8) := W4_of_ne m ρ c main_arg8 (by decide)
theorem W4_arg9 (c : Dev nD) : W4 m ρ c (Proc.devRef .tc main_arg9) = W3 m ρ c (Proc.devRef .tc main_arg9) := W4_of_ne m ρ c main_arg9 (by decide)
theorem W5_out (c : Dev nD) : W5 m ρ c (Proc.devRef .tc main_v38) = (dat2 (V4 m ρ) c).arrAt 3 cfg2.N := W5_arr m ρ c 3

end Cert.KernelIdeal.HostK

end
-- ==== Proof.Region0.lean ====
/-
  The first dense step's region: what its output array holds once every grid point has written its block back.
-/
import proofs.«176615_j37744172597441_1_alg».proof.Proof.Gen.KernelIdeal.Frame
import proofs.«176615_j37744172597441_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-! ## One block product at an index -/

/-- The left operand of the block product is read at the output's row … -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted index on its second axis; -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted index on its first axis … -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(row of j, k)` of a row block. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Entry `(k, column of j)` of a square weight matrix. -/
abbrev colAt (j : S5000x128.Idx) (k : Fin 128) : S128x128.Idx := fun a => match a with
  | ⟨0, _⟩ => ⟨k.val, k.isLt⟩
  | ⟨1, _⟩ => ⟨(j 1).val, (j 1).isLt⟩
/-- Entry `column of j` of the bias row. -/
abbrev biasCol (j : S5000x128.Idx) : S128.Idx := fun a => match a with
  | ⟨0, _⟩ => ⟨(j 1).val, (j 1).isLt⟩

/-- A block product into the zero accumulator, at an index, is the sum over the contracted index of the products. -/
theorem matmul_at {φ₁ φ₂ : FTy} (x : FVec Ideal S5000x128 φ₁) (w : FVec Ideal S128x128 φ₂) (j : S5000x128.Idx) :
    matmul dot_S5000x128_S128x128_S5000x128_1_0_0_1_n_n none x w (constant (F := Ideal) S5000x128 .f32 0x00000000#32) j
      = ∑ k : Fin 128, x (rowAt j k) * w (colAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_dot_0 _ _).trans hk
    | ⟨1, _⟩ => exact rhs_dot_1 _ _)
  rw [el, er]

/-- The bias row, given a unit leading axis and spread down the rows, reads its own column at every row. -/
theorem bias_at (b : Vec Ideal S128 .f32) (j : S5000x128.Idx) :
    broadcastTo S5000x128 (shapeCast S1x128 b shapeCasts_S128_S1x128) broadcasts_S1x128_S5000x128 j = b (biasCol j) := by
  rw [broadcastTo_apply _ broadcasts_S1x128_S5000x128 j (fun a => match a with | ⟨0, _⟩ => ⟨0, Nat.one_pos⟩ | ⟨1, _⟩ => ⟨(j 1).val, (j 1).isLt⟩) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rw [shapeCast_addUnit_apply ![128] b shapeCasts_S128_S1x128]
  exact congrArg b (funext fun a => match a with | ⟨0, _⟩ => rfl)

/-- The body's arithmetic at an index: both block products as sums over the contracted index, the bias of the
    column added, the result clamped below at zero. -/
theorem pay_apply (x0 x1 : Vec Ideal S5000x128 .f32) (x2 x3 : Vec Ideal S128x128 .f32) (x4 : Vec Ideal S128 .f32) (j : S5000x128.Idx) :
    k0_pay1 (F := Ideal) x0 x1 x2 x3 x4 j
      = max ((∑ k : Fin 128, x0 (rowAt j k) * x2 (colAt j k) + ∑ k : Fin 128, x1 (rowAt j k) * x3 (colAt j k)) + x4 (biasCol j)) 0 := by
  unfold k0_pay1
  rw [ValueIdx.maximumf_apply, ValueIdx.addf_apply, ValueIdx.addf_apply, ValueIdx.broadcast_apply, matmul_at, matmul_at, bias_at, shapeCast_self]
  simp only [ValueIdx.truncf_apply]
  show max _ (Ideal.ofBits .f32 0x00000000#32) = _
  rw [Ideal.ofBits_zero_f32]

variable (V : (c : Dev nD) → (b : Ref sig .tc) → Buf (Elt Ideal) ((c : Thread nD τ).loc b))

/-! ## From the blocks to the array -/

theorem zero_off₂ : (![0, 0] : Fin 2 → Nat) = fun _ => 0 := funext fun a => by fin_cases a <;> rfl
theorem zero_off₁ : (![0] : Fin 1 → Nat) = fun _ => 0 := funext fun a => by fin_cases a <;> rfl

/-- The body's result at an index of its block is the dense step of any arrays whose entries the loaded blocks
    hold at the places that index reads: the row of the two feature blocks, the column of the two weight matrices,
    the column's bias. -/
theorem pay_eq_dense (A X : Cert.Sage.SFeat.Idx → EReal) (Wl Wr : Cert.Sage.SSq.Idx → EReal) (B : Cert.Sage.SBias.Idx → EReal)
    (x0 x1 : Vec Ideal S5000x128 .f32) (x2 x3 : Vec Ideal S128x128 .f32) (x4 : Vec Ideal S128 .f32)
    (j : S5000x128.Idx) (i : Cert.Sage.SFeat.Idx)
    (h0 : ∀ k, x0 (rowAt j k) = A (Cert.Sage.featAt i k)) (h1 : ∀ k, x1 (rowAt j k) = X (Cert.Sage.featAt i k))
    (h2 : ∀ k, x2 (colAt j k) = Wl (Cert.Sage.sqAt i k)) (h3 : ∀ k, x3 (colAt j k) = Wr (Cert.Sage.sqAt i k))
    (h4 : x4 (biasCol j) = B (Cert.Sage.biasAt i)) :
    k0_pay1 (F := Ideal) x0 x1 x2 x3 x4 j = Cert.Sage.dense A X Wl Wr B i := by
  rw [pay_apply]
  unfold Cert.Sage.dense
  simp only [h0, h1, h2, h3, h4]

/-- The index maps over the grid: the two feature windows and the output move together down the rows, one block per
    point; the weight matrices and the bias row stay at their only block. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 19 ∧ win0_5.index t (1 : Fin 2) = 0 :=
  (by decide +kernel : ∀ t : Fin grid0.N, _)

/-- Every row block is some point's. -/
theorem idx_onto : ∀ q : Fin 20, ∃ t : Fin cfg0.N, win0_5.index t = ![q.val, 0] :=
  (by decide +kernel : ∀ q : Fin 20, ∃ t : Fin grid0.N, win0_5.index t = ![q.val, 0])

/-- What point `t` writes back is block `t` of the dense step of the arrays the region found. -/
theorem flushed_eq (c : Dev nD) (t : Fin cfg0.N) :
    (dat0 (F := Ideal) V c).flushed 5 t = ((cfg0.win 5).blk t).view.read (Elt Ideal)
      (Cert.Sage.dense (V c main_v23) (V c main_arg0) (V c main_arg2) (V c main_arg3) (V c main_arg4)) := by
  show (cfg0.win 5).cut (grid0.coords t) ((dat0 V c).after 5 t) = _
  rw [after0_5]
  unfold out0_5
  rw [View.canon_unit_zero zero_off₂]
  simp only [View.ld_unit_zero (S := S5000x128) zero_off₂, View.ld_unit_zero (S := S128x128) zero_off₂, View.ld_unit_zero (S := S128) zero_off₁]
  obtain ⟨e00, e01, e10, e11, e20, e21, e30, e31, e40, e50, e51⟩ := idx_facts t
  funext j
  show k0_pay1 (F := Ideal) (iblk0 V c 0 t) (iblk0 V c 1 t) (iblk0 V c 2 t) (iblk0 V c 3 t) (iblk0 V c 4 t) j
    = Cert.Sage.dense (V c main_v23) (V c main_arg0) (V c main_arg2) (V c main_arg3) (V c main_arg4) (((cfg0.win 5).blk t).view.emb j)
  have hrow0 : ∀ k : Fin 128, ((cfg0.win 0).blk t).view.emb (rowAt j k) = Cert.Sage.featAt (((cfg0.win 5).blk t).view.emb j) k := by
    intro k; funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have hrow1 : ∀ k : Fin 128, ((cfg0.win 1).blk t).view.emb (rowAt j k) = Cert.Sage.featAt (((cfg0.win 5).blk t).view.emb j) k := by
    intro k; funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have hcol2 : ∀ k : Fin 128, ((cfg0.win 2).blk t).view.emb (colAt j k) = Cert.Sage.sqAt (((cfg0.win 5).blk t).view.emb j) k := by
    intro k; funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hcol3 : ∀ k : Fin 128, ((cfg0.win 3).blk t).view.emb (colAt j k) = Cert.Sage.sqAt (((cfg0.win 5).blk t).view.emb j) k := by
    intro k; funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have hbias : ((cfg0.win 4).blk t).view.emb (biasCol j) = Cert.Sage.biasAt (((cfg0.win 5).blk t).view.emb j) := by
    funext a; apply Fin.ext
    match a with
    | ⟨0, _⟩ => show win0_4.index t (0 : Fin 1) * 128 + 1 * (j 1).val = win0_5.index t (1 : Fin 2) * 128 + 1 * (j 1).val; omega
  refine pay_eq_dense _ _ _ _ _ _ _ _ _ _ j _ (fun k => ?_) (fun k => ?_) (fun k => ?_) (fun k => ?_) ?_
  · show V c main_v23 (((cfg0.win 0).blk t).view.emb (rowAt j k)) = _
    rw [hrow0]
  · show V c main_arg0 (((cfg0.win 1).blk t).view.emb (rowAt j k)) = _
    rw [hrow1]
  · show V c main_arg2 (((cfg0.win 2).blk t).view.emb (colAt j k)) = _
    rw [hcol2]
  · show V c main_arg3 (((cfg0.win 3).blk t).view.emb (colAt j k)) = _
    rw [hcol3]
  · show V c main_arg4 (((cfg0.win 4).blk t).view.emb (biasCol j)) = _
    rw [hbias]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the array is in some point's block: row `r` is in the block of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the region's twenty points the output array is the dense step of the arrays the region found. -/
theorem final (c : Dev nD) :
    (dat0 (F := Ideal) V c).arrAt 5 cfg0.N
      = Cert.Sage.dense (V c main_v23) (V c main_arg0) (V c main_arg2) (V c main_arg3) (V c main_arg4) :=
  (dat0 V c).arrAt_eq_of_cover 5 (Cert.Sage.dense (V c main_v23) (V c main_arg0) (V c main_arg2) (V c main_arg3) (V c main_arg4))
    (fun t _ => flushed_eq V c t) cover

end Cert.KernelIdeal.Region0

end
-- ==== Proof.Region1.lean ====
/-
  The second dense step's region: what its output array holds once every grid point has written its block back.
-/
import proofs.«176615_j37744172597441_1_alg».proof.Proof.Gen.KernelIdeal.Frame
import proofs.«176615_j37744172597441_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

/-! ## One block product at an index -/

/-- The left operand of the block product is read at the output's row … -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted index on its second axis; -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted index on its first axis … -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(row of j, k)` of a row block. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Entry `(k, column of j)` of a square weight matrix. -/
abbrev colAt (j : S5000x128.Idx) (k : Fin 128) : S128x128.Idx := fun a => match a with
  | ⟨0, _⟩ => ⟨k.val, k.isLt⟩
  | ⟨1, _⟩ => ⟨(j 1).val, (j 1).isLt⟩
/-- Entry `column of j` of the bias row. -/
abbrev biasCol (j : S5000x128.Idx) : S128.Idx := fun a => match a with
  | ⟨0, _⟩ => ⟨(j 1).val, (j 1).isLt⟩

/-- A block product into the zero accumulator, at an index, is the sum over the contracted index of the products. -/
theorem matmul_at {φ₁ φ₂ : FTy} (x : FVec Ideal S5000x128 φ₁) (w : FVec Ideal S128x128 φ₂) (j : S5000x128.Idx) :
    matmul dot_S5000x128_S128x128_S5000x128_1_0_0_1_n_n none x w (constant (F := Ideal) S5000x128 .f32 0x00000000#32) j
      = ∑ k : Fin 128, x (rowAt j k) * w (colAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_dot_0 _ _).trans hk
    | ⟨1, _⟩ => exact rhs_dot_1 _ _)
  rw [el, er]

/-- The bias row, given a unit leading axis and spread down the rows, reads its own column at every row. -/
theorem bias_at (b : Vec Ideal S128 .f32) (j : S5000x128.Idx) :
    broadcastTo S5000x128 (shapeCast S1x128 b shapeCasts_S128_S1x128) broadcasts_S1x128_S5000x128 j = b (biasCol j) := by
  rw [broadcastTo_apply _ broadcasts_S1x128_S5000x128 j (fun a => match a with | ⟨0, _⟩ => ⟨0, Nat.one_pos⟩ | ⟨1, _⟩ => ⟨(j 1).val, (j 1).isLt⟩) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rw [shapeCast_addUnit_apply ![128] b shapeCasts_S128_S1x128]
  exact congrArg b (funext fun a => match a with | ⟨0, _⟩ => rfl)

/-- The body's arithmetic at an index: both block products as sums over the contracted index, the bias of the
    column added, the result clamped below at zero. -/
theorem pay_apply (x0 x1 : Vec Ideal S5000x128 .f32) (x2 x3 : Vec Ideal S128x128 .f32) (x4 : Vec Ideal S128 .f32) (j : S5000x128.Idx) :
    k1_pay1 (F := Ideal) x0 x1 x2 x3 x4 j
      = max ((∑ k : Fin 128, x0 (rowAt j k) * x2 (colAt j k) + ∑ k : Fin 128, x1 (rowAt j k) * x3 (colAt j k)) + x4 (biasCol j)) 0 := by
  unfold k1_pay1
  rw [ValueIdx.maximumf_apply, ValueIdx.addf_apply, ValueIdx.addf_apply, ValueIdx.broadcast_apply, matmul_at, matmul_at, bias_at, shapeCast_self, shapeCast_self]
  simp only [ValueIdx.truncf_apply]
  show max _ (Ideal.ofBits .f32 0x00000000#32) = _
  rw [Ideal.ofBits_zero_f32]

variable (V : (c : Dev nD) → (b : Ref sig .tc) → Buf (Elt Ideal) ((c : Thread nD τ).loc b))

/-! ## From the blocks to the array -/

theorem zero_off₂ : (![0, 0] : Fin 2 → Nat) = fun _ => 0 := funext fun a => by fin_cases a <;> rfl
theorem zero_off₁ : (![0] : Fin 1 → Nat) = fun _ => 0 := funext fun a => by fin_cases a <;> rfl

/-- The body's result at an index of its block is the dense step of any arrays whose entries the loaded blocks
    hold at the places that index reads: the row of the two feature blocks, the column of the two weight matrices,
    the column's bias. -/
theorem pay_eq_dense (A X : Cert.Sage.SFeat.Idx → EReal) (Wl Wr : Cert.Sage.SSq.Idx → EReal) (B : Cert.Sage.SBias.Idx → EReal)
    (x0 x1 : Vec Ideal S5000x128 .f32) (x2 x3 : Vec Ideal S128x128 .f32) (x4 : Vec Ideal S128 .f32)
    (j : S5000x128.Idx) (i : Cert.Sage.SFeat.Idx)
    (h0 : ∀ k, x0 (rowAt j k) = A (Cert.Sage.featAt i k)) (h1 : ∀ k, x1 (rowAt j k) = X (Cert.Sage.featAt i k))
    (h2 : ∀ k, x2 (colAt j k) = Wl (Cert.Sage.sqAt i k)) (h3 : ∀ k, x3 (colAt j k) = Wr (Cert.Sage.sqAt i k))
    (h4 : x4 (biasCol j) = B (Cert.Sage.biasAt i)) :
    k1_pay1 (F := Ideal) x0 x1 x2 x3 x4 j = Cert.Sage.dense A X Wl Wr B i := by
  rw [pay_apply]
  unfold Cert.Sage.dense
  simp only [h0, h1, h2, h3, h4]

/-- The index maps over the grid: the two feature windows and the output move together down the rows, one block per
    point; the weight matrices and the bias row stay at their only block. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) ≤ 19 ∧ win1_5.index t (1 : Fin 2) = 0 :=
  (by decide +kernel : ∀ t : Fin grid1.N, _)

/-- Every row block is some point's. -/
theorem idx_onto : ∀ q : Fin 20, ∃ t : Fin cfg1.N, win1_5.index t = ![q.val, 0] :=
  (by decide +kernel : ∀ q : Fin 20, ∃ t : Fin grid1.N, win1_5.index t = ![q.val, 0])

/-- What point `t` writes back is block `t` of the dense step of the arrays the region found. -/
theorem flushed_eq (c : Dev nD) (t : Fin cfg1.N) :
    (dat1 (F := Ideal) V c).flushed 5 t = ((cfg1.win 5).blk t).view.read (Elt Ideal)
      (Cert.Sage.dense (V c main_v36) (V c main_v24) (V c main_arg5) (V c main_arg6) (V c main_arg7)) := by
  show (cfg1.win 5).cut (grid1.coords t) ((dat1 V c).after 5 t) = _
  rw [after1_5]
  unfold out1_5
  rw [View.canon_unit_zero zero_off₂]
  simp only [View.ld_unit_zero (S := S5000x128) zero_off₂, View.ld_unit_zero (S := S128x128) zero_off₂, View.ld_unit_zero (S := S128) zero_off₁]
  obtain ⟨e00, e01, e10, e11, e20, e21, e30, e31, e40, e50, e51⟩ := idx_facts t
  funext j
  show k1_pay1 (F := Ideal) (iblk1 V c 0 t) (iblk1 V c 1 t) (iblk1 V c 2 t) (iblk1 V c 3 t) (iblk1 V c 4 t) j
    = Cert.Sage.dense (V c main_v36) (V c main_v24) (V c main_arg5) (V c main_arg6) (V c main_arg7) (((cfg1.win 5).blk t).view.emb j)
  have hrow0 : ∀ k : Fin 128, ((cfg1.win 0).blk t).view.emb (rowAt j k) = Cert.Sage.featAt (((cfg1.win 5).blk t).view.emb j) k := by
    intro k; funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have hrow1 : ∀ k : Fin 128, ((cfg1.win 1).blk t).view.emb (rowAt j k) = Cert.Sage.featAt (((cfg1.win 5).blk t).view.emb j) k := by
    intro k; funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have hcol2 : ∀ k : Fin 128, ((cfg1.win 2).blk t).view.emb (colAt j k) = Cert.Sage.sqAt (((cfg1.win 5).blk t).view.emb j) k := by
    intro k; funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have hcol3 : ∀ k : Fin 128, ((cfg1.win 3).blk t).view.emb (colAt j k) = Cert.Sage.sqAt (((cfg1.win 5).blk t).view.emb j) k := by
    intro k; funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have hbias : ((cfg1.win 4).blk t).view.emb (biasCol j) = Cert.Sage.biasAt (((cfg1.win 5).blk t).view.emb j) := by
    funext a; apply Fin.ext
    match a with
    | ⟨0, _⟩ => show win1_4.index t (0 : Fin 1) * 128 + 1 * (j 1).val = win1_5.index t (1 : Fin 2) * 128 + 1 * (j 1).val; omega
  refine pay_eq_dense _ _ _ _ _ _ _ _ _ _ j _ (fun k => ?_) (fun k => ?_) (fun k => ?_) (fun k => ?_) ?_
  · show V c main_v36 (((cfg1.win 0).blk t).view.emb (rowAt j k)) = _
    rw [hrow0]
  · show V c main_v24 (((cfg1.win 1).blk t).view.emb (rowAt j k)) = _
    rw [hrow1]
  · show V c main_arg5 (((cfg1.win 2).blk t).view.emb (colAt j k)) = _
    rw [hcol2]
  · show V c main_arg6 (((cfg1.win 3).blk t).view.emb (colAt j k)) = _
    rw [hcol3]
  · show V c main_arg7 (((cfg1.win 4).blk t).view.emb (biasCol j)) = _
    rw [hbias]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every index of the array is in some point's block: row `r` is in the block of point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region's twenty points the output array is the dense step of the arrays the region found. -/
theorem final (c : Dev nD) :
    (dat1 (F := Ideal) V c).arrAt 5 cfg1.N
      = Cert.Sage.dense (V c main_v36) (V c main_v24) (V c main_arg5) (V c main_arg6) (V c main_arg7) :=
  (dat1 V c).arrAt_eq_of_cover 5 (Cert.Sage.dense (V c main_v36) (V c main_v24) (V c main_arg5) (V c main_arg6) (V c main_arg7))
    (fun t _ => flushed_eq V c t) cover

end Cert.KernelIdeal.Region1

end
-- ==== Proof.Region2.lean ====
/-
  The closing affine map's region: what its output array holds once every grid point has written its block back.

  Point `t` of the twenty holds rows `5000·t … 5000·t + 4999` of the feature array, the whole weight matrix and the
  whole bias row, and leaves in its output block, at (p, q), the sum over k of block[p, k] · weights[k, q] plus bias[q].
  Read at the array's own coordinates that is the affine map's entry at (5000·t + p, q); the twenty blocks tile the
  rows, so the array ends as the affine map of the arrays the region found.
-/
import proofs.«176615_j37744172597441_1_alg».proof.Proof.Gen.KernelIdeal.Frame
import proofs.«176615_j37744172597441_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The contraction's index maps, axis by axis -/

/-- The left operand is read at the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted index. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted index. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand is read at the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a row block with the weight matrix into the zero accumulator, at entry (p, q): the sum over the
    contracted index k of block[p, k] · weights[k, q]. -/
theorem matmul_apply (y0 : FVec Ideal S5000x128 .bf16) (y1 : FVec Ideal S128x64 .bf16) (p : Fin 5000) (q : Fin 64) :
    matmul dot_S5000x128_S128x64_S5000x64_1_0_0_1_n_n none y0 y1 (constant (F := Ideal) S5000x64 .f32 0x00000000#32) (ix2 p q)
      = ∑ k : Fin 128, y0 (ix2 p k) * y1 (ix2 k q) := by
  refine (Ideal.matmul_constant_zero_apply dot_S5000x128_S128x64_S5000x64_1_0_0_1_n_n none y0 y1 (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the output block: the row p of the input block against column q of
    the weight matrix, plus entry q of the bias row. -/
theorem pay_apply (x0 : Vec Ideal S5000x128 .f32) (x1 : Vec Ideal S128x64 .f32) (x2 : Vec Ideal S64 .f32) (p : Fin 5000) (q : Fin 64) :
    k2_pay1 (F := Ideal) x0 x1 x2 (ix2 p q) = (∑ k : Fin 128, x0 (ix2 p k) * x1 (ix2 k q)) + x2 (ix1 q) := by
  unfold k2_pay1
  rw [addf_apply, matmul_apply, broadcastTo_1b_ab_apply, shapeCast_a_1a_apply, shapeCast_self]
  rfl

variable (V : (c : Dev nD) → (b : Ref sig .tc) → Buf (Elt Ideal) ((c : Thread nD τ).loc b))

/-! ## From the block to the array's entries -/

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The body's arithmetic on a row block that holds rows `5000·r …` of `A`, on the whole weight matrix `W` and the whole
    bias row `B`, at entry `j` of the output block, is the affine map of `A`, `W`, `B` at the array entry `i` that sits
    at row `5000·r + (row of j)` and at the column of `j`: both sides are the sum over the contracted index of
    `A[row, k] · W[k, column]` plus `B[column]`, compared term by term. -/
theorem block_entry (A : Cert.Sage.SFeat.Idx → EReal) (W : Cert.Sage.SLin.Idx → EReal) (B : Cert.Sage.SBiasOut.Idx → EReal)
    (x0 : Vec Ideal S5000x128 .f32) (x1 : Vec Ideal S128x64 .f32) (x2 : Vec Ideal S64 .f32) (r : Nat)
    (h0 : ∀ (y : S5000x128.Idx) (i : Cert.Sage.SFeat.Idx), (i 0).val = r * 5000 + (y 0).val → (i 1).val = (y 1).val → x0 y = A i)
    (h1 : ∀ y : S128x64.Idx, x1 y = W y) (h2 : ∀ y : S64.Idx, x2 y = B y)
    (j : S5000x64.Idx) (i : Cert.Sage.SOut.Idx) (hi0 : (i 0).val = r * 5000 + (j 0).val) (hi1 : (i 1).val = (j 1).val) :
    k2_pay1 (F := Ideal) x0 x1 x2 j = Cert.Sage.affine A W B i := by
  obtain ⟨p, q, rfl⟩ : ∃ (p : Fin 5000) (q : Fin 64), j = ix2 p q := ⟨j 0, j 1, eq_ix2 j⟩
  rw [pay_apply]
  unfold Cert.Sage.affine
  have eb : (ix1 q : S64.Idx) = Cert.Sage.biasAtOut i := funext fun a => Fin.ext (by
    match a with
    | ⟨0, _⟩ => exact hi1.symm)
  rw [h2, eb]
  congr 1
  refine Finset.sum_congr rfl fun k _ => ?_
  have ew : (ix2 k q : S128x64.Idx) = Cert.Sage.linAt i k := funext fun a => Fin.ext (by
    match a with
    | ⟨0, _⟩ => rfl
    | ⟨1, _⟩ => exact hi1.symm)
  rw [h0 (ix2 p k) (Cert.Sage.featAtOut i k) hi0 rfl, h1, ew]

/-- The printed index maps over the grid: at point `t` the input row block and the output row block are block `t` along the
    rows and block 0 along the columns; the weight matrix and the bias row are block 0 on every axis. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the affine map of the arrays the region found. -/
theorem flushed_eq (c : Dev nD) (t : Fin cfg2.N) :
    (dat2 (F := Ideal) V c).flushed 3 t
      = ((cfg2.win 3).blk t).view.read (Elt Ideal) (Cert.Sage.affine (V c main_v37) (V c main_arg8) (V c main_arg9)) := by
  show (cfg2.win 3).cut (grid2.coords t) ((dat2 V c).after 3 t) = _
  rw [after2_3]
  unfold out2_3
  rw [View.canon_unit_zero zero_offsets₂]
  simp only [View.ld_unit_zero (S := S5000x128) zero_offsets₂, View.ld_unit_zero (S := S128x64) zero_offsets₂, View.ld_unit_zero (S := S64) zero_offsets₁]
  obtain ⟨e0, e1, e2, e3, e4, e5, e6⟩ := idx_facts t
  funext j
  show k2_pay1 (F := Ideal) (iblk2 V c 0 t) (iblk2 V c 1 t) (iblk2 V c 2 t) j
    = Cert.Sage.affine (V c main_v37) (V c main_arg8) (V c main_arg9) (((cfg2.win 3).blk t).view.emb j)
  refine block_entry (V c main_v37) (V c main_arg8) (V c main_arg9) _ _ _ t.val ?_ ?_ ?_ j _ ?_ ?_
  · intro y i hy0 hy1
    show V c main_v37 (((cfg2.win 0).blk t).view.emb y) = V c main_v37 i
    congr 1
    funext a; apply Fin.ext
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y
    show V c main_arg8 (((cfg2.win 1).blk t).view.emb y) = V c main_arg8 y
    congr 1
    funext a; apply Fin.ext
    match a with
    | ⟨0, _⟩ => show win2_1.index t (0 : Fin 2) * 128 + 1 * (y 0).val = (y 0).val; omega
    | ⟨1, _⟩ => show win2_1.index t (1 : Fin 2) * 64 + 1 * (y 1).val = (y 1).val; omega
  · intro y
    show V c main_arg9 (((cfg2.win 2).blk t).view.emb y) = V c main_arg9 y
    congr 1
    funext a; apply Fin.ext
    match a with
    | ⟨0, _⟩ => show win2_2.index t (0 : Fin 1) * 64 + 1 * (y 0).val = (y 0).val; omega
  · show win2_3.index t (0 : Fin 2) * 5000 + 1 * (j 0).val = t.val * 5000 + (j 0).val; omega
  · show win2_3.index t (1 : Fin 2) * 64 + 1 * (j 1).val = (j 1).val; omega

/-! ## The blocks tile the rows -/

/-- An entry of the output array is in point `t`'s block iff on each axis its coordinate is in the block's range. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v38).slice (win2_3.rect t)).set ↔ _
  rw [View.set_slice_whole, Rect.mem_set_unit]
  exact Iff.rfl

/-- Every entry of the output array is in some point's block: row `r` is in the block of point `r / 5000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; rw [hN]; omega⟩
  obtain ⟨e0, e1, e2, e3, e4, e5, e6⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region's twenty points the output array is the affine map of the arrays the region found. -/
theorem final (c : Dev nD) :
    (dat2 (F := Ideal) V c).arrAt 3 cfg2.N
      = Cert.Sage.affine (V c main_v37) (V c main_arg8) (V c main_arg9) :=
  (dat2 (F := Ideal) V c).arrAt_eq_of_cover 3 (Cert.Sage.affine (V c main_v37) (V c main_arg8) (V c main_arg9))
    (fun t _ => flushed_eq V c t) cover

end Cert.KernelIdeal.Region2

end
-- ==== Proof.KernelValue.lean ====
/-
  The kernel program's result as one function of its arguments.

  The first region's output is the dense step of the neighbour mean of the input features; the second region's is the
  dense step of the neighbour mean of the first's output; the third region's, the program's result, is the closing
  affine map of the second's output.  Each equation joins what a region leaves of the arrays it found with what the
  host operations before it had put in those arrays, the weights and biases being the arguments as launched.
-/
import proofs.«176615_j37744172597441_1_alg».proof.Proof.HostK
import proofs.«176615_j37744172597441_1_alg».proof.Proof.Region0
import proofs.«176615_j37744172597441_1_alg».proof.Proof.Region1
import proofs.«176615_j37744172597441_1_alg».proof.Proof.Region2

set_option maxRecDepth 16384

noncomputable section

namespace Cert.KernelIdeal.KernelValue

open Cert.KernelIdeal Cert.KernelIdeal.Gen Cert.KernelIdeal.HostK Idealize.ShloMosaic Idealize.ShloMosaic.TcCoe Idealize.SL.Sem

variable (m : (ℓ : Loc nD τ sig) → Buf (Elt Ideal) ℓ) (ρ : Dev nD → PrngReg)

/-- The hidden features after the first dense step, of the launch memory. -/
abbrev feats1 (c : Dev nD) : (⟨S100000x128, .f32⟩ : BufTy).Contents (Elt Ideal) :=
  Cert.Sage.dense (mean (F := Ideal) (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))

/-- The hidden features after the second dense step, of the launch memory. -/
abbrev feats2 (c : Dev nD) : (⟨S100000x128, .f32⟩ : BufTy).Contents (Elt Ideal) :=
  Cert.Sage.dense (mean (F := Ideal) (feats1 m c) (m ((c : Thread nD τ).loc main_arg1))) (feats1 m c) (m ((c : Thread nD τ).loc main_arg5)) (m ((c : Thread nD τ).loc main_arg6)) (m ((c : Thread nD τ).loc main_arg7))

/-- The first region leaves its output at the first dense step. -/
theorem out_region0 (c : Dev nD) : W2 m ρ c (Proc.devRef .tc main_v24) = feats1 m c := by
  rw [W2_out, Cert.KernelIdeal.Region0.final (V1 m ρ) c]
  exact congr (congr (congr (congr (congrArg Cert.Sage.dense (W1_mean m ρ c)) (W1_arg0 m ρ c)) (W1_arg2 m ρ c)) (W1_arg3 m ρ c)) (W1_arg4 m ρ c)

/-- The second region is entered with the neighbour mean of the first dense step's output. -/
theorem mean_region1 (c : Dev nD) :
    W3 m ρ c (Proc.devRef .tc main_v36) = mean (F := Ideal) (feats1 m c) (m ((c : Thread nD τ).loc main_arg1)) := by
  rw [W3_mean, W2_v1, W2_v3, W2_v11, W1_src, W1_dst, W1_inv, out_region0]
  rfl

/-- The second region leaves its output at the second dense step. -/
theorem out_region1 (c : Dev nD) : W4 m ρ c (Proc.devRef .tc main_v37) = feats2 m c := by
  rw [W4_out, Cert.KernelIdeal.Region1.final (V3 m ρ) c]
  exact congr (congr (congr (congr (congrArg Cert.Sage.dense (mean_region1 m ρ c)) ((W3_v24 m ρ c).trans (out_region0 m ρ c))) ((W3_arg5 m ρ c).trans ((W2_arg5 m ρ c).trans (W1_arg5 m ρ c)))) ((W3_arg6 m ρ c).trans ((W2_arg6 m ρ c).trans (W1_arg6 m ρ c)))) ((W3_arg7 m ρ c).trans ((W2_arg7 m ρ c).trans (W1_arg7 m ρ c)))

/-- The program's result is the closing affine map of the second dense step. -/
theorem result (c : Dev nD) :
    W5 m ρ c (Proc.devRef .tc main_v38) = Cert.Sage.affine (feats2 m c) (m ((c : Thread nD τ).loc main_arg8)) (m ((c : Thread nD τ).loc main_arg9)) := by
  rw [W5_out, Cert.KernelIdeal.Region2.final (V4 m ρ) c]
  exact congr (congr (congrArg Cert.Sage.affine (out_region1 m ρ c)) ((W4_arg8 m ρ c).trans ((W3_arg8 m ρ c).trans ((W2_arg8 m ρ c).trans (W1_arg8 m ρ c))))) ((W4_arg9 m ρ c).trans ((W3_arg9 m ρ c).trans ((W2_arg9 m ρ c).trans (W1_arg9 m ρ c))))

end Cert.KernelIdeal.KernelValue

end
-- ==== Proof.RefValue.lean ====
/-
  The reference's result as the composition of the two dense steps and the closing affine map, each fed the
  neighbour mean `sum / max deg 1` of the features before it.
-/
import proofs.«176615_j37744172597441_1_alg».proof.Proof.Gen.ReferenceIdeal.Run
import proofs.«176615_j37744172597441_1_alg».proof.Proof.Gen.ReferenceIdeal.Read
import proofs.«176615_j37744172597441_1_alg».proof.Proof.Spec

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem

/-- The reference's neighbour mean of a feature array along the edge list: the scatter-added gathered rows divided by
    the clamped in-degree `max deg 1`, as a function of the features and the edge list. -/
abbrev mean (feat : (⟨S100000x128, .f32⟩ : BufTy).Contents (Elt Ideal)) (ei : (⟨S2x640000, .i32⟩ : BufTy).Contents (Elt Ideal)) :
    (⟨S100000x128, .f32⟩ : BufTy).Contents (Elt Ideal) :=
  val_main_v21 (F := Ideal) feat ei

/-- The hidden features after the first dense step. -/
abbrev hidden (x : (⟨S100000x128, .f32⟩ : BufTy).Contents (Elt Ideal)) (ei : (⟨S2x640000, .i32⟩ : BufTy).Contents (Elt Ideal))
    (wl wr : (⟨S128x128, .f32⟩ : BufTy).Contents (Elt Ideal)) (b : (⟨S128, .f32⟩ : BufTy).Contents (Elt Ideal)) :
    (⟨S100000x128, .f32⟩ : BufTy).Contents (Elt Ideal) :=
  Cert.Sage.dense (mean x ei) x wl wr b

/-- The first layer's output is one dense step of the neighbour mean and the features: entry `(r, c)` is
    `max ((∑ₖ mean[r,k]·Wl[k,c] + ∑ₖ x[r,k]·Wr[k,c]) + b[c]) 0`. The two contractions read row `r` of the left operand
    and column `c` of the weight; the bias row is broadcast along the rows, so the entry reads `b[c]`; the clamp's
    constant is the zero of the extended reals. -/
theorem dense_one (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    val_main_v28 (F := Ideal) x0 x1 x2 x3 x4 = Cert.Sage.dense (val_main_v21 (F := Ideal) x0 x1) x0 x2 x3 x4 := by
  funext i
  rw [val_main_v28_apply, val_main_v27_apply, val_main_v24_apply, val_main_v22_apply, val_main_v23_apply,
    val_main_v26_apply, val_main_v25_apply, val_main_call0_v0_apply, val_main_call0_cst_apply]
  generalize val_main_v21 (F := Ideal) x0 x1 = a
  simp only [Ideal.addf_def, Ideal.maximumf_def, Ideal.ofBits_def, Ideal.ofBits_zero_f32]
  rfl

/-- The second layer's aggregation is the same neighbour mean, taken of the first layer's output: the index
    arithmetic on the edge list (slice, reshape, wrap of negative indices, broadcast to a column), the zero and one
    constants, the two scatter-additions, the clamp of the degree by one and the division are operation for operation
    those of the first layer, with the hidden features in place of the input features. -/
theorem mean_two (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    val_main_v46 (F := Ideal) x0 x1 x2 x3 x4 = val_main_v21 (F := Ideal) (val_main_v28 (F := Ideal) x0 x1 x2 x3 x4) x1 := by
  unfold val_main_v46 val_main_v21 val_main_v38 val_main_v13 val_main_v45 val_main_v20 val_main_v44 val_main_v19
    val_main_v35 val_main_v10 val_main_v36 val_main_v11 val_main_v37 val_main_v12 val_main_v42 val_main_v17 val_main_v43 val_main_v18
    val_main_v34 val_main_v9 val_main_v33 val_main_v8 val_main_v30 val_main_v5 val_main_v32 val_main_v7 val_main_v29 val_main_v4 val_main_v31 val_main_v6
    val_main_v39 val_main_v14 val_main_v40 val_main_v15 val_main_v41 val_main_v16
    val_main_cst_6 val_main_cst val_main_cst_7 val_main_cst_1 val_main_cst_8 val_main_cst_2 val_main_cst_9 val_main_cst_3 val_main_c_4 val_main_c val_main_c_5 val_main_c_0
  generalize val_main_v28 (F := Ideal) x0 x1 x2 x3 x4 = h
  rfl

/-- The second layer's output is one dense step of its aggregation and the hidden features, entry by entry as in
    the first layer, with the second layer's weights and bias. -/
theorem dense_two (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    val_main_v53 (F := Ideal) x0 x1 x2 x3 x4 x5 x6 x7
      = Cert.Sage.dense (val_main_v46 (F := Ideal) x0 x1 x2 x3 x4) (val_main_v28 (F := Ideal) x0 x1 x2 x3 x4) x5 x6 x7 := by
  funext i
  rw [val_main_v53_apply, val_main_v52_apply, val_main_v49_apply, val_main_v47_apply, val_main_v48_apply,
    val_main_v51_apply, val_main_v50_apply, val_main_call1_v0_apply, val_main_call1_cst_apply]
  generalize val_main_v46 (F := Ideal) x0 x1 x2 x3 x4 = a
  generalize val_main_v28 (F := Ideal) x0 x1 x2 x3 x4 = h
  simp only [Ideal.addf_def, Ideal.maximumf_def, Ideal.ofBits_def, Ideal.ofBits_zero_f32]
  rfl

/-- The result is the closing affine map of the second layer's output: entry `(r, c)` is
    `∑ₖ h₂[r,k]·W[k,c] + b[c]`, the contraction reading row `r` of the features and column `c` of the weight, the
    bias row broadcast along the rows. -/
theorem affine_end (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v57 (F := Ideal) x0 x1 x2 x3 x4 x5 x6 x7 x8 x9
      = Cert.Sage.affine (val_main_v53 (F := Ideal) x0 x1 x2 x3 x4 x5 x6 x7) x8 x9 := by
  funext i
  rw [val_main_v57_apply, val_main_v54_apply, val_main_v56_apply, val_main_v55_apply]
  generalize val_main_v53 (F := Ideal) x0 x1 x2 x3 x4 x5 x6 x7 = h
  simp only [Ideal.addf_def]
  rfl

/-- The reference run's result term is the affine map of the second dense step of the first. -/
theorem ref_value (m : (ℓ : Loc nD τ sig) → Buf (Elt Ideal) ℓ) (c : Dev nD) :
    res_main_v57 (F := Ideal) m c
      = Cert.Sage.affine
          (Cert.Sage.dense
            (mean (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (m ((c.tc : Thread nD τ).loc main_arg1)))
            (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) := by
  rw [val_main_v57_eq, affine_end, dense_two, mean_two, dense_one]

end Cert.ReferenceIdeal.RefValue

end
-- ==== Proof.Bridge.lean ====
/-
  The two neighbour means are one function.

  The kernel program scales the per-destination sums by the reciprocal `1 / max deg 1`; the reference divides them by
  `max deg 1`.  On the extended reals a quotient by a nonzero `d` is the product with `d⁻¹`, and `1 / d` is `d⁻¹`, so
  `s · (1 / d) = s / d` whatever `s` is, the infinities included; and `max deg 1 ≥ 1` is never zero.  The sums and
  the degrees themselves are the same gather and scatter-additions of the same operands on both sides.
-/
import proofs.«176615_j37744172597441_1_alg».proof.Proof.HostK
import proofs.«176615_j37744172597441_1_alg».proof.Proof.RefValue
import Idealize.ShloMosaic.Lib.IdealHost
import Idealize.ShloMosaic.Lib.Pipeline.Value

set_option maxRecDepth 16384

noncomputable section

namespace Cert.Bridge

open Idealize.ShloMosaic Idealize.ShloMosaic.TcCoe

/-- Row `r` of an index of a 128-column array, as the index of a one-column array. -/
abbrev colOf (i : Cert.Sage.SFeat.Idx) : (⟨2, ![100000, 1]⟩ : Shape).Idx := fun a => match a with
  | ⟨0, _⟩ => ⟨(i 0).val, (i 0).isLt⟩
  | ⟨1, _⟩ => ⟨0, Nat.one_pos⟩

/-- Scaling row `r` of the sums by `1 / max d[r] 1` is dividing it by `max d[r] 1`. -/
theorem scale_eq_div (hb : (⟨2, ![100000, 1]⟩ : Shape).BroadcastsInDim Cert.Sage.SFeat ![0, 1])
    (S : FVec Ideal Cert.Sage.SFeat .f32) (D one : FVec Ideal (⟨2, ![100000, 1]⟩ : Shape) .f32) (hone : ∀ j, one j = 1) :
    mulf S (broadcastInDim Cert.Sage.SFeat ![0, 1] hb (Host.divf one (maximumf D one)))
      = Host.divf S (broadcastInDim Cert.Sage.SFeat ![0, 1] hb (maximumf D one)) := by
  funext i
  have hidx : ∀ a : Fin 2, ((colOf i) a).val = if (⟨2, ![100000, 1]⟩ : Shape).size a = 1 then 0 else (i ((![0, 1] : Fin 2 → Fin 2) a)).val := fun a =>
    match a with
    | ⟨0, _⟩ => by show (i 0).val = if (100000 : Nat) = 1 then 0 else (i 0).val; rw [if_neg (by decide)]
    | ⟨1, _⟩ => by show 0 = if (1 : Nat) = 1 then 0 else (i 1).val; rw [if_pos rfl]
  show FloatOps.mulf (S i) (broadcastInDim Cert.Sage.SFeat ![0, 1] hb (Host.divf one (maximumf D one)) i)
    = FloatOps.hostDivf (S i) (broadcastInDim Cert.Sage.SFeat ![0, 1] hb (maximumf D one) i)
  rw [broadcastInDim_apply _ hb _ i (colOf i) hidx, broadcastInDim_apply _ hb _ i (colOf i) hidx]
  show S i * Ideal.div (one (colOf i)) (max (D (colOf i)) (one (colOf i))) = Ideal.div (S i) (max (D (colOf i)) (one (colOf i)))
  rw [hone]
  exact Cert.Sage.mul_one_div _ _ (Cert.Sage.max_one_ne_zero _)

/-- The broadcast of the constant one reads one at every index. -/
theorem one_col (hb : (⟨0, ![]⟩ : Shape).BroadcastsInDim (⟨2, ![100000, 1]⟩ : Shape) ![]) (j : (⟨2, ![100000, 1]⟩ : Shape).Idx) :
    broadcastInDim (⟨2, ![100000, 1]⟩ : Shape) ![] hb (constant (F := Ideal) (⟨0, ![]⟩ : Shape) .f32 0x3F800000#32) j = 1 := by
  rw [broadcastInDim_apply _ hb _ j (fun a => a.elim0) (fun a => a.elim0)]
  exact Ideal.ofBits_one_f32

open Cert.ReferenceIdeal.Read in
/-- The kernel program's neighbour mean and the reference's are the same function of the features and the edge list. -/
theorem mean_eq (feat : (⟨Cert.KernelIdeal.S100000x128, .f32⟩ : BufTy).Contents (Elt Ideal))
    (ei : (⟨Cert.KernelIdeal.S2x640000, .i32⟩ : BufTy).Contents (Elt Ideal)) :
    Cert.KernelIdeal.HostK.mean (F := Ideal) feat ei = Cert.ReferenceIdeal.RefValue.mean feat ei := by
  unfold Cert.KernelIdeal.HostK.mean Cert.KernelIdeal.HostK.scaledSum Cert.KernelIdeal.HostK.invDeg
  refine (scale_eq_div _ _ _ _ (one_col _)).trans ?_
  unfold Cert.ReferenceIdeal.RefValue.mean val_main_v21 val_main_v13 val_main_v20 val_main_v19 val_main_v17 val_main_v18
    val_main_v10 val_main_v11 val_main_v12 val_main_v14 val_main_v15 val_main_v16 val_main_v9 val_main_v8 val_main_v7 val_main_v6
    val_main_v5 val_main_v4 val_main_v3 val_main_v2 val_main_v1 val_main_v0 val_main_cst val_main_cst_1 val_main_cst_2 val_main_cst_3
    val_main_c val_main_c_0 Cert.KernelIdeal.HostK.edgeRow0 Cert.KernelIdeal.HostK.edgeRow1
  rfl

end Cert.Bridge

end
-- ==== Proof.lean ====
/-
  A two-layer neighbour-mean graph network over 100000 nodes and 640000 edges, followed by a linear layer: the
  kernel program against its array-language reference, over the extended reals.

  Both programs gather the source rows of the features along the edge list and add them up per destination node, and
  both count the edges into each node.  The reference divides the sums by `max deg 1`; the kernel program multiplies
  them by `1 / max deg 1`.  A quotient by a nonzero extended real `d` is the product with `d⁻¹`, and `1 / d = d⁻¹`, so
  the two means agree at every entry, infinite ones included, and no finiteness of the inputs is used.  Each dense
  step `max ((mean·Wl + x·Wr) + b) 0` is computed by the kernel program in twenty row blocks of 5000 rows, each entry a
  sum over the 128 contracted columns exactly as the reference's matrix products; rounding to a narrower float format
  is the identity on the extended reals.  The closing affine map `h·W + b` is blocked the same way.  So the two
  programs end with one and the same function of their arguments.

  The three frame claims are the programs' runs with the result forgotten; nothing was rewritten when the kernel
  program was read over the extended reals, so that claim is trivial.
-/
import proofs.«176615_j37744172597441_1_alg».proof.Defs
import proofs.«176615_j37744172597441_1_alg».proof.Proof.Gen.Kernel
import proofs.«176615_j37744172597441_1_alg».proof.Proof.Gen.Kernel.Frame
import proofs.«176615_j37744172597441_1_alg».proof.Proof.Gen.KernelIdeal
import proofs.«176615_j37744172597441_1_alg».proof.Proof.Gen.KernelIdeal.Frame
import proofs.«176615_j37744172597441_1_alg».proof.Proof.Gen.ReferenceIdeal
import proofs.«176615_j37744172597441_1_alg».proof.Proof.Gen.ReferenceIdeal.Run
import proofs.«176615_j37744172597441_1_alg».proof.Proof.Gen.Pre_finite_inputs
import proofs.«176615_j37744172597441_1_alg».proof.Proof.RunValue
import proofs.«176615_j37744172597441_1_alg».proof.Proof.KernelValue
import proofs.«176615_j37744172597441_1_alg».proof.Proof.RefValue
import proofs.«176615_j37744172597441_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the closing affine map of the second dense step of the first, the kernel program's neighbour
    means being the reference's. -/
theorem algebraic : Cert.algebraic_KernelIdeal_ReferenceIdeal := by
  intro m ρ m' ρ' _ hagree
  refine ⟨fun c => Cert.Sage.affine (Cert.KernelIdeal.KernelValue.feats2 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.ref_value, h0, h1, h2, h3, h4, h5, h6, h7, h8, h9]
    beta_reduce
    unfold Cert.KernelIdeal.KernelValue.feats2 Cert.KernelIdeal.KernelValue.feats1 Cert.ReferenceIdeal.RefValue.hidden
    rw [Cert.Bridge.mean_eq, Cert.Bridge.mean_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
